-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 88
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S1x64, .f32⟩
  | .hbm, ⟨87, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostK.lean ====
/-
  The host operations between the kernel regions, read as functions of the buffers they read.

  @main's host stretches compute, from the edge list: every edge's source and target node with one self loop per
  node appended; the in-degree of every node; its inverse square root where positive (zero elsewhere); the product of
  the two end nodes' values, one weight per edge — and then, once per layer, the aggregation: every edge's source
  row of the layer's linear output, scaled by the edge's weight, added into the edge's target row. Each lemma reads one
  buffer after one stretch from ANY contents before it: what the stretch writes, as the operations' term of the
  buffers it reads; what it does not write, unchanged.
-/
import proofs.«101611_j41901700939839_1_alg».proof.Proof.Gen.KernelIdeal.Launch
import Idealize.ShloMosaic.Lib.StableHlo.Run

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]

/-! ## The terms -/

/-- Row `r` of the edge list as a vector, the node numbers 0 … 99999 appended (the self loops). -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- jnp's index normalisation: a negative node number counts from the end. -/
def wrap (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

/-- The edge weights: deg^(-1/2) at the source times deg^(-1/2) at the target, deg the number of edges into a node. -/
def normOf (src dst : (⟨S1700000, .i32⟩ : BufTy).Contents (Elt F)) : (⟨S1700000, .f32⟩ : BufTy).Contents (Elt F) :=
  mulf
    (Host.gather gather_S100000_S1700000x1_S1700000_n_0_n_n_0_1_1
      (select
        (cmpf (F := F) .ogt
          (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))
          (broadcastInDim S100000 ![] bcast_S_S100000 (constant S_ .f32 0x00000000#32)))
        (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
        (broadcastInDim S100000 ![] bcast_S_S100000 (id (constant S_ .f32 0x00000000#32))))
      (broadcastInDim S1700000x1 ![0] bcast_S1700000_S1700000x1_0 (wrap src)))
    (Host.gather gather_S100000_S1700000x1_S1700000_n_0_n_n_0_1_1
      (select
        (cmpf (F := F) .ogt
          (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))
          (broadcastInDim S100000 ![] bcast_S_S100000 (constant S_ .f32 0x00000000#32)))
        (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
        (broadcastInDim S100000 ![] bcast_S_S100000 (id (constant S_ .f32 0x00000000#32))))
      (broadcastInDim S1700000x1 ![0] bcast_S1700000_S1700000x1_0 (wrap dst)))

/-- One aggregation: row `src e` of `h` times the weight of `e`, added into row `dst e`, over every edge `e`. -/
def aggOf (src dst : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (broadcastInDim S1700000x1 ![0] bcast_S1700000_S1700000x1_0 (wrap src)))
      (broadcastInDim S1700000x128 ![0, 1] bcast_S1700000x1_S1700000x128_0_1 (broadcastInDim S1700000x1 ![0] bcast_S1700000_S1700000x1_0 nrm)))

variable (U : Valuation τ sig (Elt F))

/-! ## Before the first region: the three stretches up to the edge weights -/

theorem pre_v3 : after hostOps0_2 (after hostOps0_1 (after hostOps0 U)) (Proc.devRef .tc main_v3) = srcOf (U (Proc.devRef .tc main_arg1)) := by
  after_results
  rfl

theorem pre_v6 : after hostOps0_2 (after hostOps0_1 (after hostOps0 U)) (Proc.devRef .tc main_v6) = dstOf (U (Proc.devRef .tc main_arg1)) := by
  after_results
  rfl

set_option maxHeartbeats 8000000 in
theorem pre_v29 : after hostOps0_2 (after hostOps0_1 (after hostOps0 U)) (Proc.devRef .tc main_v29)
    = normOf (srcOf (U (Proc.devRef .tc main_arg1))) (dstOf (U (Proc.devRef .tc main_arg1))) := by
  after_results
  rfl

theorem pre_arg0 : after hostOps0_2 (after hostOps0_1 (after hostOps0 U)) (Proc.devRef .tc main_arg0) = U (Proc.devRef .tc main_arg0) := by
  after_results
theorem pre_arg2 : after hostOps0_2 (after hostOps0_1 (after hostOps0 U)) (Proc.devRef .tc main_arg2) = U (Proc.devRef .tc main_arg2) := by
  after_results
theorem pre_arg3 : after hostOps0_2 (after hostOps0_1 (after hostOps0 U)) (Proc.devRef .tc main_arg3) = U (Proc.devRef .tc main_arg3) := by
  after_results
theorem pre_arg4 : after hostOps0_2 (after hostOps0_1 (after hostOps0 U)) (Proc.devRef .tc main_arg4) = U (Proc.devRef .tc main_arg4) := by
  after_results
theorem pre_arg5 : after hostOps0_2 (after hostOps0_1 (after hostOps0 U)) (Proc.devRef .tc main_arg5) = U (Proc.devRef .tc main_arg5) := by
  after_results
theorem pre_arg6 : after hostOps0_2 (after hostOps0_1 (after hostOps0 U)) (Proc.devRef .tc main_arg6) = U (Proc.devRef .tc main_arg6) := by
  after_results
theorem pre_arg7 : after hostOps0_2 (after hostOps0_1 (after hostOps0 U)) (Proc.devRef .tc main_arg7) = U (Proc.devRef .tc main_arg7) := by
  after_results

/-! ## Between the first and the second region: the first aggregation, and the first bias as a row -/

set_option maxHeartbeats 2000000 in
theorem agg1_v43 : after hostOps1 U (Proc.devRef .tc main_v43)
    = aggOf (U (Proc.devRef .tc main_v3)) (U (Proc.devRef .tc main_v6)) (U (Proc.devRef .tc main_v29)) (U (Proc.devRef .tc main_v30)) := by
  after_results_simp
  rfl
theorem agg1_v44 : after hostOps1 U (Proc.devRef .tc main_v44) = shapeCast S1x128 (U (Proc.devRef .tc main_arg3)) shapeCasts_S128_S1x128 := by
  after_results
  rfl
theorem agg1_v3 : after hostOps1 U (Proc.devRef .tc main_v3) = U (Proc.devRef .tc main_v3) := by
  after_results
theorem agg1_v6 : after hostOps1 U (Proc.devRef .tc main_v6) = U (Proc.devRef .tc main_v6) := by
  after_results
theorem agg1_v29 : after hostOps1 U (Proc.devRef .tc main_v29) = U (Proc.devRef .tc main_v29) := by
  after_results
theorem agg1_arg4 : after hostOps1 U (Proc.devRef .tc main_arg4) = U (Proc.devRef .tc main_arg4) := by
  after_results
theorem agg1_arg5 : after hostOps1 U (Proc.devRef .tc main_arg5) = U (Proc.devRef .tc main_arg5) := by
  after_results
theorem agg1_arg6 : after hostOps1 U (Proc.devRef .tc main_arg6) = U (Proc.devRef .tc main_arg6) := by
  after_results
theorem agg1_arg7 : after hostOps1 U (Proc.devRef .tc main_arg7) = U (Proc.devRef .tc main_arg7) := by
  after_results

/-! ## Between the third and the fourth region: the second aggregation, and the second bias as a row -/

set_option maxHeartbeats 2000000 in
theorem agg2_v59 : after hostOps3 U (Proc.devRef .tc main_v59)
    = aggOf (U (Proc.devRef .tc main_v3)) (U (Proc.devRef .tc main_v6)) (U (Proc.devRef .tc main_v29)) (U (Proc.devRef .tc main_v46)) := by
  after_results_simp
  rfl
theorem agg2_v60 : after hostOps3 U (Proc.devRef .tc main_v60) = shapeCast S1x128 (U (Proc.devRef .tc main_arg5)) shapeCasts_S128_S1x128 := by
  after_results
  rfl
theorem agg2_arg6 : after hostOps3 U (Proc.devRef .tc main_arg6) = U (Proc.devRef .tc main_arg6) := by
  after_results
theorem agg2_arg7 : after hostOps3 U (Proc.devRef .tc main_arg7) = U (Proc.devRef .tc main_arg7) := by
  after_results

/-! ## Before the last region: the last bias as a row -/

theorem last_v62 : after hostOps4 U (Proc.devRef .tc main_v62) = shapeCast S1x64 (U (Proc.devRef .tc main_arg7)) shapeCasts_S64_S1x64 := by
  after_results
  rfl
theorem last_v61 : after hostOps4 U (Proc.devRef .tc main_v61) = U (Proc.devRef .tc main_v61) := by
  after_results
theorem last_arg6 : after hostOps4 U (Proc.devRef .tc main_arg6) = U (Proc.devRef .tc main_arg6) := by
  after_results

end Cert.KernelIdeal.HostK

end
-- ==== Proof.Blocks.lean ====
/-
  The three kernel bodies' payloads read at an index, at the ideal instance.

  A linear body stores the product of its row block with the whole weight matrix: entry (p, q) of the stored block is
  the sum over k of block (p, k) times weight (k, q) — the change of float format before the product is the identity on
  extended reals and the accumulator starts at zero. A bias body stores max (a (p, q) + b (0, q), 0). The last body does
  both.
-/
import proofs.«101611_j41901700939839_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx

/-! ## The kernel's [5000, 128] x [128, 128] product: which operand entries an output entry reads -/

theorem k128_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem k128_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem k128_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem k128_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product into a zero accumulator: the sum over k of (p, k) times (k, q). -/
theorem mm128_apply (xb : FVec Ideal S5000x128 .bf16) (w : FVec Ideal S128x128 .bf16) (p : Fin 5000) (q : Fin 128) :
    matmul dot_S5000x128_S128x128_S5000x128_1_0_0_1_n_n none xb w (constant (F := Ideal) S5000x128 .f32 0x00000000#32) (ix2 p q)
      = ∑ k : Fin 128, xb (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact k128_l0 _ _
    | ⟨1, _⟩ => exact (k128_l1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (k128_r0 _ _).trans hk
    | ⟨1, _⟩ => exact k128_r1 _ _)
  rw [el, er]

/-- The first linear body's stored block at (p, q). -/
theorem lin0_pay (xb : Vec Ideal S5000x128 .f32) (w : Vec Ideal S128x128 .f32) (p : Fin 5000) (q : Fin 128) :
    k0_pay1 (F := Ideal) xb w (ix2 p q) = ∑ k : Fin 128, xb (ix2 p k) * w (ix2 k q) := by
  unfold k0_pay1
  exact mm128_apply _ _ p q

/-- The second linear body's stored block at (p, q): the same sum (its extra shape cast is the identity). -/
theorem lin2_pay (xb : Vec Ideal S5000x128 .f32) (w : Vec Ideal S128x128 .f32) (p : Fin 5000) (q : Fin 128) :
    k2_pay1 (F := Ideal) xb w (ix2 p q) = ∑ k : Fin 128, xb (ix2 p k) * w (ix2 k q) := by
  unfold k2_pay1
  rw [shapeCast_self]
  exact mm128_apply _ _ p q

/-! ## The kernel's [5000, 128] x [128, 64] product -/

theorem k64_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem k64_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem k64_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem k64_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem mm64_apply (xb : FVec Ideal S5000x128 .bf16) (w : FVec Ideal S128x64 .bf16) (p : Fin 5000) (q : Fin 64) :
    matmul dot_S5000x128_S128x64_S5000x64_1_0_0_1_n_n none xb w (constant (F := Ideal) S5000x64 .f32 0x00000000#32) (ix2 p q)
      = ∑ k : Fin 128, xb (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact k64_l0 _ _
    | ⟨1, _⟩ => exact (k64_l1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (k64_r0 _ _).trans hk
    | ⟨1, _⟩ => exact k64_r1 _ _)
  rw [el, er]

/-! ## A bias row spread over the block's rows -/

theorem row128_apply (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

theorem row64_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

/-- The first bias body's stored block at (p, q): the larger of a (p, q) + b (0, q) and zero. -/
theorem bias1_pay (xb : Vec Ideal S5000x128 .f32) (b : Vec Ideal S1x128 .f32) (p : Fin 5000) (q : Fin 128) :
    k1_pay1 (F := Ideal) xb b (ix2 p q) = max (xb (ix2 p q) + b (ix2 0 q)) (FloatOps.ofBits (F := Ideal) .f32 0x00000000#32) := by
  unfold k1_pay1
  rw [shapeCast_self, shapeCast_self]
  show max (xb (ix2 p q) + broadcastTo S5000x128 b broadcasts_S1x128_S5000x128 (ix2 p q)) _ = _
  rw [row128_apply]
  rfl

/-- The second bias body's stored block: the same function. -/
theorem bias3_pay (xb : Vec Ideal S5000x128 .f32) (b : Vec Ideal S1x128 .f32) (p : Fin 5000) (q : Fin 128) :
    k3_pay1 (F := Ideal) xb b (ix2 p q) = max (xb (ix2 p q) + b (ix2 0 q)) (FloatOps.ofBits (F := Ideal) .f32 0x00000000#32) := by
  unfold k3_pay1
  rw [shapeCast_self, shapeCast_self]
  show max (xb (ix2 p q) + broadcastTo S5000x128 b broadcasts_S1x128_S5000x128 (ix2 p q)) _ = _
  rw [row128_apply]
  rfl

/-- The last body's stored block at (p, q): the larger of the product's entry plus b (0, q) and zero. -/
theorem last_pay (xb : Vec Ideal S5000x128 .f32) (w : Vec Ideal S128x64 .f32) (b : Vec Ideal S1x64 .f32) (p : Fin 5000) (q : Fin 64) :
    k4_pay1 (F := Ideal) xb w b (ix2 p q)
      = max ((∑ k : Fin 128, xb (ix2 p k) * w (ix2 k q)) + b (ix2 0 q)) (FloatOps.ofBits (F := Ideal) .f32 0x00000000#32) := by
  unfold k4_pay1
  rw [shapeCast_self, shapeCast_self]
  show max (matmul dot_S5000x128_S128x64_S5000x64_1_0_0_1_n_n none (truncf .bf16 xb bitsLt_bf16_f32) (truncf .bf16 w bitsLt_bf16_f32) (constant (F := Ideal) S5000x64 .f32 0x00000000#32) (ix2 p q)
    + broadcastTo S5000x64 b broadcasts_S1x64_S5000x64 (ix2 p q)) _ = _
  rw [row64_apply, mm64_apply]
  rfl

end Cert.KernelIdeal.Blocks

end
-- ==== Proof.RefDot.lean ====
/-
  The host's two dot_generals read at an index, at the ideal instance: entry (r, q) of `A · B` is the sum over the
  128 contracted positions k of A (r, k) times B (k, q) — for the [100000, 128] x [128, 128] product and for the
  [100000, 128] x [128, 64] one.
-/
import proofs.«101611_j41901700939839_1_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.RefDot

open Cert.ReferenceIdeal Cert.ReferenceIdeal.Gen Idealize.ShloMosaic Idealize.ShloMosaic.TcCoe Idealize.ShloMosaic.ValueIdx

/-! ## [100000, 128] x [128, 128] -/

theorem r128_l0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem r128_l1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem r128_r0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem r128_r1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dot128_apply (A : FVec Ideal S100000x128 .f32) (B : FVec Ideal S128x128 .f32) (r : Fin 100000) (q : Fin 128) :
    Host.dotGeneral dot_S100000x128_S128x128_S100000x128_1_0_0_1_n_n none A B (ix2 r q) = ∑ k : Fin 128, A (ix2 r k) * B (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact r128_l0 _ _
    | ⟨1, _⟩ => exact (r128_l1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (r128_r0 _ _).trans hk
    | ⟨1, _⟩ => exact r128_r1 _ _)
  rw [el, er]

/-! ## [100000, 128] x [128, 64] -/

theorem r64_l0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem r64_l1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem r64_r0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem r64_r1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

theorem dot64_apply (A : FVec Ideal S100000x128 .f32) (B : FVec Ideal S128x64 .f32) (r : Fin 100000) (q : Fin 64) :
    Host.dotGeneral dot_S100000x128_S128x64_S100000x64_1_0_0_1_n_n none A B (ix2 r q) = ∑ k : Fin 128, A (ix2 r k) * B (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r q) ((ValueIdx.contrEquiv1 dot_S100000x128_S128x64_S100000x64_1_0_0_1_n_n 128 rfl rfl).symm k) = ix2 r k := funext fun a => Fin.ext (by
    match a with
    | ⟨0, _⟩ => exact r64_l0 _ _
    | ⟨1, _⟩ => exact (r64_l1 _ _).trans hk)
  have er : dot_S100000x128_S128x64_S100000x64_1_0_0_1_n_n.rhsIdx (ix2 r q) ((ValueIdx.contrEquiv1 dot_S100000x128_S128x64_S100000x64_1_0_0_1_n_n 128 rfl rfl).symm k) = ix2 k q := funext fun a => Fin.ext (by
    match a with
    | ⟨0, _⟩ => exact (r64_r0 _ _).trans hk
    | ⟨1, _⟩ => exact r64_r1 _ _)
  rw [el, er]

end Cert.ReferenceIdeal.RefDot

end
-- ==== Proof.Reg0.lean ====
/-
  The first linear region's result array, at the ideal instance: the host's dot_general of the two arrays the region
  finds in its operand windows.

  The grid has 20 points; point t stages rows 5000 t … 5000 t + 4999 of the left array and the whole right array, and
  writes back rows 5000 t … 5000 t + 4999 of the result. Entry (p, q) of the block written at t is the sum over k of
  left (5000 t + p, k) times right (k, q), which is the dot_general's entry (5000 t + p, q); the 20 blocks tile the rows.
-/
import proofs.«101611_j41901700939839_1_alg».proof.Proof.Gen.KernelIdeal.Frame
import proofs.«101611_j41901700939839_1_alg».proof.Proof.Blocks
import proofs.«101611_j41901700939839_1_alg».proof.Proof.RefDot
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the result array ends holding: the host's product of the two operand arrays as the region finds them. -/
abbrev G (c : Dev nD) : FVec Ideal Cert.ReferenceIdeal.S100000x128 .f32 :=
  Host.dotGeneral (F := Ideal) (φ₁ := .f32) (φ₂ := .f32) Cert.ReferenceIdeal.dot_S100000x128_S128x128_S100000x128_1_0_0_1_n_n none
    (V c main_arg0) (V c main_arg2)

/-- The left window's block at point t is rows 5000 t … of the left array. -/
theorem rows_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The right window's block at every point is the whole right array. -/
theorem weights_apply (c : Dev nD) (t : Fin cfg0.N) (y : S128x128.Idx) :
    (iblk0 V c 1 t : Vec Ideal S128x128 .f32) y = (V c main_arg2 : S128x128.Idx → EReal) y := by
  obtain ⟨-, -, e2, e3, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point t writes back is block t of the product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = G V c (((cfg0.win 2).blk t).view.emb (ix2 p q))
  refine (lin0_pay (iblk0 V c 0 t) (iblk0 V c 1 t) p q).trans ?_
  have ht : t.val < 20 := lt_of_lt_of_eq t.isLt N_0
  have hi : ((cfg0.win 2).blk t).view.emb (ix2 p q)
      = (ix2 (⟨5000 * t.val + p.val, by have := p.isLt; omega⟩ : Fin 100000) q : Cert.ReferenceIdeal.S100000x128.Idx) := by
    funext a
    apply Fin.ext
    match a with
    | ⟨0, _⟩ => show win0_2.index t 0 * 5000 + 1 * p.val = 5000 * t.val + p.val; rw [e4]; omega
    | ⟨1, _⟩ => show win0_2.index t 1 * 128 + 1 * q.val = q.val; rw [e5]; omega
  rw [hi]
  refine Eq.trans ?_ (Cert.ReferenceIdeal.RefDot.dot128_apply (V c main_arg0 : FVec Ideal Cert.ReferenceIdeal.S100000x128 .f32) (V c main_arg2 : FVec Ideal Cert.ReferenceIdeal.S128x128 .f32) ⟨5000 * t.val + p.val, by have := p.isLt; omega⟩ q).symm
  refine Finset.sum_congr rfl fun k _ => ?_
  exact congrArg₂ (· * ·) (rows_apply V c t (ix2 p k) (ix2 ⟨5000 * t.val + p.val, by have := p.isLt; omega⟩ k) rfl rfl) (weights_apply V c t (ix2 k q))

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index ⟨(i 0).val / 5000, _⟩ 0 * 5000 ≤ (i 0).val ∧ (i 0).val < win0_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, _⟩ 1 * 128 ≤ (i 1).val ∧ (i 1).val < win0_2.index ⟨(i 0).val / 5000, _⟩ 1 * 128 + 128
    rw [e5]; omega

/-- The result array after the region: the product of the two operand arrays. -/
theorem final (c : Dev nD) : (dat0 V c).arrAt 2 cfg0.N = G V c :=
  (dat0 V c).arrAt_eq_of_cover 2 (G V c) (fun t _ => flushed_eq V c t) cover

end Cert.KernelIdeal.Reg0

end
-- ==== Proof.RefOps.lean ====
/-
  The reference's @main as four lists of host operations, and what each list computes.

  The first list (40 operations) turns the edge list into every edge's source and target node, one self loop per node
  appended, and into the edge weights deg^(-1/2)(source) · deg^(-1/2)(target). The second (23) is the first layer:
  the input times the first weight matrix, the aggregation over the edges, the bias and the maximum with zero. The
  third (23) is the second layer, the same over the first layer's result. The fourth (7) is the output layer: a
  product, the bias, the maximum with zero. Each lemma reads one buffer after one list from ANY contents before it;
  `out_v70` chains them: after all 93 operations the result buffer holds `outOf` of the eight arguments.
-/
import proofs.«101611_j41901700939839_1_alg».proof.Proof.Gen.ReferenceIdeal
import Idealize.ShloMosaic.Lib.StableHlo.Run
import Idealize.ShloMosaic.Lib.Pipeline.Frame

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-! ## The terms -/

/-- Row `r` of the edge list as a vector, the node numbers 0 … 99999 appended (the self loops). -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- jnp's index normalisation: a negative node number counts from the end. -/
def wrap (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

/-- The edge weights: deg^(-1/2) at the source times deg^(-1/2) at the target, deg the number of edges into a node. -/
def normOf (src dst : (⟨S1700000, .i32⟩ : BufTy).Contents (Elt F)) : (⟨S1700000, .f32⟩ : BufTy).Contents (Elt F) :=
  mulf
    (Host.gather gather_S100000_S1700000x1_S1700000_n_0_n_n_0_1_1
      (select
        (cmpf (F := F) .ogt
          (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))
          (broadcastInDim S100000 ![] bcast_S_S100000 (constant S_ .f32 0x00000000#32)))
        (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
        (broadcastInDim S100000 ![] bcast_S_S100000 (id (constant S_ .f32 0x00000000#32))))
      (broadcastInDim S1700000x1 ![0] bcast_S1700000_S1700000x1_0 (wrap src)))
    (Host.gather gather_S100000_S1700000x1_S1700000_n_0_n_n_0_1_1
      (select
        (cmpf (F := F) .ogt
          (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))
          (broadcastInDim S100000 ![] bcast_S_S100000 (constant S_ .f32 0x00000000#32)))
        (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
        (broadcastInDim S100000 ![] bcast_S_S100000 (id (constant S_ .f32 0x00000000#32))))
      (broadcastInDim S1700000x1 ![0] bcast_S1700000_S1700000x1_0 (wrap dst)))

/-- One aggregation: row `src e` of `h` times the weight of `e`, added into row `dst e`, over every edge `e`. -/
def aggOf (src dst : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (broadcastInDim S1700000x1 ![0] bcast_S1700000_S1700000x1_0 (wrap src)))
      (broadcastInDim S1700000x128 ![0, 1] bcast_S1700000x1_S1700000x128_0_1 (broadcastInDim S1700000x1 ![0] bcast_S1700000_S1700000x1_0 nrm)))

/-- A layer's linear map: the host's product with a [128, 128] weight matrix. -/
def linOf (a : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none a w

/-- A bias vector as a row. -/
def rowOf (b : (⟨S128, .f32⟩ : BufTy).Contents (Elt F)) : (⟨S1x128, .f32⟩ : BufTy).Contents (Elt F) :=
  broadcastInDim S1x128 ![1] bcast_S128_S1x128_1 b

def rowOf64 (b : (⟨S64, .f32⟩ : BufTy).Contents (Elt F)) : (⟨S1x64, .f32⟩ : BufTy).Contents (Elt F) :=
  broadcastInDim S1x64 ![1] bcast_S64_S1x64_1 b

/-- A layer's epilogue: the bias row added to every row, then the maximum with zero. -/
def reluBias (a : (⟨S100000x128, .f32⟩ : BufTy).Contents (Elt F)) (b : (⟨S1x128, .f32⟩ : BufTy).Contents (Elt F)) :
    (⟨S100000x128, .f32⟩ : BufTy).Contents (Elt F) :=
  maximumf (addf a (broadcastInDim S100000x128 ![0, 1] bcast_S1x128_S100000x128_0_1 b))
    (broadcastInDim S100000x128 ![] bcast_S_S100000x128 (constant S_ .f32 0x00000000#32))

/-- The output layer: the product with the [128, 64] matrix, the bias row, the maximum with zero. -/
def lastOf (a : (⟨S100000x128, .f32⟩ : BufTy).Contents (Elt F)) (w : (⟨S128x64, .f32⟩ : BufTy).Contents (Elt F))
    (b : (⟨S1x64, .f32⟩ : BufTy).Contents (Elt F)) : (⟨S100000x64, .f32⟩ : BufTy).Contents (Elt F) :=
  maximumf (addf (Host.dotGeneral dot_S100000x128_S128x64_S100000x64_1_0_0_1_n_n none a w) (broadcastInDim S100000x64 ![0, 1] bcast_S1x64_S100000x64_0_1 b))
    (broadcastInDim S100000x64 ![] bcast_S_S100000x64 (constant S_ .f32 0x00000000#32))

/-- The whole network as one function of the eight arguments. -/
def outOf (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x64, .f32⟩ : BufTy).Contents (Elt F)) (x7 : (⟨S64, .f32⟩ : BufTy).Contents (Elt F)) :
    (⟨S100000x64, .f32⟩ : BufTy).Contents (Elt F) :=
  lastOf
    (reluBias (aggOf (srcOf x1) (dstOf x1) (normOf (srcOf x1) (dstOf x1))
      (linOf (reluBias (aggOf (srcOf x1) (dstOf x1) (normOf (srcOf x1) (dstOf x1)) (linOf x0 x2)) (rowOf x3)) x4)) (rowOf x5))
    x6 (rowOf64 x7)

/-! ## The operations -/

/-- Operations 1 … 40: the edges' end nodes and weights. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA_fresh : (opsA : List (HloOp τ sig (Elt F))).Forall fun op => op.fresh = ∅ := by
  simp only [List.Forall]; repeat' constructor

/-- Operations 41 … 63: the first layer. -/
abbrev opsB : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsB_fresh : (opsB : List (HloOp τ sig (Elt F))).Forall fun op => op.fresh = ∅ := by
  simp only [List.Forall]; repeat' constructor

/-- Operations 64 … 86: the second layer. -/
abbrev opsC : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsC_fresh : (opsC : List (HloOp τ sig (Elt F))).Forall fun op => op.fresh = ∅ := by
  simp only [List.Forall]; repeat' constructor

/-- Operations 87 … 93: the output layer. -/
abbrev opsD : List (HloOp τ sig (Elt F)) :=
  [ binary main_v65 main_arg6 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v69) (TRef.of (T := ⟨S100000x64, .f32⟩) main_call3_v0) (TRef.of (T := ⟨S100000x64, .f32⟩) main_v70) maximumf ]
theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem opsD_fresh : (opsD : List (HloOp τ sig (Elt F))).Forall fun op => op.fresh = ∅ := by
  simp only [List.Forall]; repeat' constructor

variable (U : Valuation τ sig (Elt F))

/-! ## The first list -/

theorem A_v3 : after opsA U (Proc.devRef .tc main_v3) = srcOf (U (Proc.devRef .tc main_arg1)) := by
  after_results
  rfl
theorem A_v6 : after opsA U (Proc.devRef .tc main_v6) = dstOf (U (Proc.devRef .tc main_arg1)) := by
  after_results
  rfl
set_option maxHeartbeats 8000000 in
theorem A_v29 : after opsA U (Proc.devRef .tc main_v29)
    = normOf (srcOf (U (Proc.devRef .tc main_arg1))) (dstOf (U (Proc.devRef .tc main_arg1))) := by
  after_results
  rfl
theorem A_arg0 : after opsA U (Proc.devRef .tc main_arg0) = U (Proc.devRef .tc main_arg0) := by
  after_results
theorem A_arg2 : after opsA U (Proc.devRef .tc main_arg2) = U (Proc.devRef .tc main_arg2) := by
  after_results
theorem A_arg3 : after opsA U (Proc.devRef .tc main_arg3) = U (Proc.devRef .tc main_arg3) := by
  after_results
theorem A_arg4 : after opsA U (Proc.devRef .tc main_arg4) = U (Proc.devRef .tc main_arg4) := by
  after_results
theorem A_arg5 : after opsA U (Proc.devRef .tc main_arg5) = U (Proc.devRef .tc main_arg5) := by
  after_results
theorem A_arg6 : after opsA U (Proc.devRef .tc main_arg6) = U (Proc.devRef .tc main_arg6) := by
  after_results
theorem A_arg7 : after opsA U (Proc.devRef .tc main_arg7) = U (Proc.devRef .tc main_arg7) := by
  after_results

/-! ## The first layer -/

set_option maxHeartbeats 4000000 in
theorem B_v47 : after opsB U (Proc.devRef .tc main_v47)
    = reluBias (aggOf (U (Proc.devRef .tc main_v3)) (U (Proc.devRef .tc main_v6)) (U (Proc.devRef .tc main_v29))
        (linOf (U (Proc.devRef .tc main_arg0)) (U (Proc.devRef .tc main_arg2)))) (rowOf (U (Proc.devRef .tc main_arg3))) := by
  after_results_simp
  rfl
theorem B_v3 : after opsB U (Proc.devRef .tc main_v3) = U (Proc.devRef .tc main_v3) := by
  after_results
theorem B_v6 : after opsB U (Proc.devRef .tc main_v6) = U (Proc.devRef .tc main_v6) := by
  after_results
theorem B_v29 : after opsB U (Proc.devRef .tc main_v29) = U (Proc.devRef .tc main_v29) := by
  after_results
theorem B_arg4 : after opsB U (Proc.devRef .tc main_arg4) = U (Proc.devRef .tc main_arg4) := by
  after_results
theorem B_arg5 : after opsB U (Proc.devRef .tc main_arg5) = U (Proc.devRef .tc main_arg5) := by
  after_results
theorem B_arg6 : after opsB U (Proc.devRef .tc main_arg6) = U (Proc.devRef .tc main_arg6) := by
  after_results
theorem B_arg7 : after opsB U (Proc.devRef .tc main_arg7) = U (Proc.devRef .tc main_arg7) := by
  after_results

/-! ## The second layer -/

set_option maxHeartbeats 4000000 in
theorem C_v65 : after opsC U (Proc.devRef .tc main_v65)
    = reluBias (aggOf (U (Proc.devRef .tc main_v3)) (U (Proc.devRef .tc main_v6)) (U (Proc.devRef .tc main_v29))
        (linOf (U (Proc.devRef .tc main_v47)) (U (Proc.devRef .tc main_arg4)))) (rowOf (U (Proc.devRef .tc main_arg5))) := by
  after_results_simp
  rfl
theorem C_arg6 : after opsC U (Proc.devRef .tc main_arg6) = U (Proc.devRef .tc main_arg6) := by
  after_results
theorem C_arg7 : after opsC U (Proc.devRef .tc main_arg7) = U (Proc.devRef .tc main_arg7) := by
  after_results

/-! ## The output layer -/

theorem D_v70 : after opsD U (Proc.devRef .tc main_v70)
    = lastOf (U (Proc.devRef .tc main_v65)) (U (Proc.devRef .tc main_arg6)) (rowOf64 (U (Proc.devRef .tc main_arg7))) := by
  after_results_simp
  rfl

/-! ## All 93 operations -/

/-- @main's 93 operations, in order. -/
abbrev ops : List (HloOp τ sig (Elt F)) := opsA ++ opsB ++ opsC ++ opsD

/-- After all of them the result buffer holds the network's function of the eight arguments. -/
theorem out_v70 : after ops U (Proc.devRef .tc main_v70)
    = outOf (U (Proc.devRef .tc main_arg0)) (U (Proc.devRef .tc main_arg1)) (U (Proc.devRef .tc main_arg2)) (U (Proc.devRef .tc main_arg3))
        (U (Proc.devRef .tc main_arg4)) (U (Proc.devRef .tc main_arg5)) (U (Proc.devRef .tc main_arg6)) (U (Proc.devRef .tc main_arg7)) := by
  show after (opsA ++ opsB ++ opsC ++ opsD) U (Proc.devRef .tc main_v70) = _
  rw [after_append, after_append, after_append, D_v70, C_v65, C_arg6, C_arg7, B_v47, B_v3, B_v6, B_v29, B_arg4, B_arg5, B_arg6, B_arg7,
    A_v3, A_v6, A_v29, A_arg0, A_arg2, A_arg3, A_arg4, A_arg5, A_arg6, A_arg7]
  rfl

/-! ## No operation writes an argument -/

theorem ops_arg0 : after ops U (Proc.devRef .tc main_arg0) = U (Proc.devRef .tc main_arg0) := by
  show after (opsA ++ opsB ++ opsC ++ opsD) U _ = _
  rw [after_append, after_append, after_append]
  after_results_simp
theorem ops_arg1 : after ops U (Proc.devRef .tc main_arg1) = U (Proc.devRef .tc main_arg1) := by
  show after (opsA ++ opsB ++ opsC ++ opsD) U _ = _
  rw [after_append, after_append, after_append]
  after_results_simp
theorem ops_arg2 : after ops U (Proc.devRef .tc main_arg2) = U (Proc.devRef .tc main_arg2) := by
  show after (opsA ++ opsB ++ opsC ++ opsD) U _ = _
  rw [after_append, after_append, after_append]
  after_results_simp
theorem ops_arg3 : after ops U (Proc.devRef .tc main_arg3) = U (Proc.devRef .tc main_arg3) := by
  show after (opsA ++ opsB ++ opsC ++ opsD) U _ = _
  rw [after_append, after_append, after_append]
  after_results_simp
theorem ops_arg4 : after ops U (Proc.devRef .tc main_arg4) = U (Proc.devRef .tc main_arg4) := by
  show after (opsA ++ opsB ++ opsC ++ opsD) U _ = _
  rw [after_append, after_append, after_append]
  after_results_simp
theorem ops_arg5 : after ops U (Proc.devRef .tc main_arg5) = U (Proc.devRef .tc main_arg5) := by
  show after (opsA ++ opsB ++ opsC ++ opsD) U _ = _
  rw [after_append, after_append, after_append]
  after_results_simp
theorem ops_arg6 : after ops U (Proc.devRef .tc main_arg6) = U (Proc.devRef .tc main_arg6) := by
  show after (opsA ++ opsB ++ opsC ++ opsD) U _ = _
  rw [after_append, after_append, after_append]
  after_results_simp
theorem ops_arg7 : after ops U (Proc.devRef .tc main_arg7) = U (Proc.devRef .tc main_arg7) := by
  show after (opsA ++ opsB ++ opsC ++ opsD) U _ = _
  rw [after_append, after_append, after_append]
  after_results_simp

end Cert.ReferenceIdeal.RefOps

end
-- ==== Proof.RefRows.lean ====
/-
  The reference's layer functions read at an index, at the ideal instance: the epilogue's entry (r, q) is the larger of
  a (r, q) + b (0, q) and zero; the output layer's is the larger of the product's entry plus b (0, q) and zero.
-/
import proofs.«101611_j41901700939839_1_alg».proof.Proof.RefOps
import proofs.«101611_j41901700939839_1_alg».proof.Proof.RefDot

noncomputable section

namespace Cert.ReferenceIdeal.RefRows

open Cert.ReferenceIdeal Cert.ReferenceIdeal.Gen Cert.ReferenceIdeal.RefOps Idealize.ShloMosaic Idealize.ShloMosaic.TcCoe Idealize.ShloMosaic.ValueIdx

/-- A [1, 128] row spread over the 100000 rows. -/
theorem spread128_apply (b : FVec Ideal S1x128 .f32) (r : Fin 100000) (q : Fin 128) :
    broadcastInDim S100000x128 ![0, 1] bcast_S1x128_S100000x128_0_1 b (ix2 r q) = b (ix2 0 q) :=
  broadcastInDim_apply _ bcast_S1x128_S100000x128_0_1 b (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

theorem spread64_apply (b : FVec Ideal S1x64 .f32) (r : Fin 100000) (q : Fin 64) :
    broadcastInDim S100000x64 ![0, 1] bcast_S1x64_S100000x64_0_1 b (ix2 r q) = b (ix2 0 q) :=
  broadcastInDim_apply _ bcast_S1x64_S100000x64_0_1 b (ix2 r q) (ix2 0 q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- The zero splat over [100000, 128] reads the zero word everywhere. -/
theorem zeros128_apply (i : S100000x128.Idx) :
    broadcastInDim S100000x128 ![] bcast_S_S100000x128 (constant (F := Ideal) S_ .f32 0x00000000#32) i = FloatOps.ofBits (F := Ideal) .f32 0x00000000#32 :=
  broadcastInDim_apply _ bcast_S_S100000x128 (constant (F := Ideal) S_ .f32 0x00000000#32) i ix0 (fun a => a.elim0)

theorem zeros64_apply (i : S100000x64.Idx) :
    broadcastInDim S100000x64 ![] bcast_S_S100000x64 (constant (F := Ideal) S_ .f32 0x00000000#32) i = FloatOps.ofBits (F := Ideal) .f32 0x00000000#32 :=
  broadcastInDim_apply _ bcast_S_S100000x64 (constant (F := Ideal) S_ .f32 0x00000000#32) i ix0 (fun a => a.elim0)

theorem reluBias_apply (a : FVec Ideal S100000x128 .f32) (b : FVec Ideal S1x128 .f32) (r : Fin 100000) (q : Fin 128) :
    reluBias (F := Ideal) a b (ix2 r q) = max (a (ix2 r q) + b (ix2 0 q)) (FloatOps.ofBits (F := Ideal) .f32 0x00000000#32) := by
  unfold reluBias
  show max (a (ix2 r q) + broadcastInDim S100000x128 ![0, 1] bcast_S1x128_S100000x128_0_1 b (ix2 r q))
    (broadcastInDim S100000x128 ![] bcast_S_S100000x128 (constant (F := Ideal) S_ .f32 0x00000000#32) (ix2 r q)) = _
  rw [spread128_apply, zeros128_apply]

theorem lastOf_apply (a : FVec Ideal S100000x128 .f32) (w : FVec Ideal S128x64 .f32) (b : FVec Ideal S1x64 .f32) (r : Fin 100000) (q : Fin 64) :
    lastOf (F := Ideal) a w b (ix2 r q)
      = max ((∑ k : Fin 128, a (ix2 r k) * w (ix2 k q)) + b (ix2 0 q)) (FloatOps.ofBits (F := Ideal) .f32 0x00000000#32) := by
  unfold lastOf
  show max (Host.dotGeneral dot_S100000x128_S128x64_S100000x64_1_0_0_1_n_n none a w (ix2 r q)
      + broadcastInDim S100000x64 ![0, 1] bcast_S1x64_S100000x64_0_1 b (ix2 r q))
    (broadcastInDim S100000x64 ![] bcast_S_S100000x64 (constant (F := Ideal) S_ .f32 0x00000000#32) (ix2 r q)) = _
  rw [spread64_apply, zeros64_apply, RefDot.dot64_apply]

end Cert.ReferenceIdeal.RefRows

end
-- ==== Proof.Reg1.lean ====
/-
  The first epilogue region's result array, at the ideal instance: the bias row added to every row of the aggregated
  array, then the maximum with zero — the reference's epilogue of the two arrays the region finds in its windows.

  Point t stages rows 5000 t … 5000 t + 4999 of the aggregated array and the whole [1, 128] bias row, and writes back
  the same rows of the result; entry (p, q) of the block written is max (a (5000 t + p, q) + b (0, q), 0).
-/
import proofs.«101611_j41901700939839_1_alg».proof.Proof.Gen.KernelIdeal.Frame
import proofs.«101611_j41901700939839_1_alg».proof.Proof.Blocks
import proofs.«101611_j41901700939839_1_alg».proof.Proof.RefRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.KernelIdeal.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the result array ends holding: the reference's epilogue of the two operand arrays as the region finds them. -/
abbrev G (c : Dev nD) : FVec Ideal Cert.ReferenceIdeal.S100000x128 .f32 :=
  Cert.ReferenceIdeal.RefOps.reluBias (F := Ideal) (V c main_v43) (V c main_v44)

/-- The first window's block at point t is rows 5000 t … of the aggregated array. -/
theorem rows_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v43 : S100000x128.Idx → EReal) i := by
  obtain ⟨e0, e1, -⟩ := idx_facts t
  unfold iblk1
  rw [View.read_apply]
  show V c main_v43 _ = V c main_v43 _
  refine congrArg (V c main_v43) ?_
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The second window's block at every point is the whole bias row. -/
theorem bias_apply (c : Dev nD) (t : Fin cfg1.N) (y : S1x128.Idx) :
    (iblk1 V c 1 t : Vec Ideal S1x128 .f32) y = (V c main_v44 : S1x128.Idx → EReal) y := by
  obtain ⟨-, -, e2, e3, -⟩ := idx_facts t
  unfold iblk1
  rw [View.read_apply]
  show V c main_v44 _ = V c main_v44 _
  refine congrArg (V c main_v44) ?_
  funext a
  apply Fin.ext
  match a with
  | ⟨0, _⟩ => show win1_1.index t 0 * 1 + 1 * (y 0).val = (y 0).val; rw [e2]; omega
  | ⟨1, _⟩ => show win1_1.index t 1 * 128 + 1 * (y 1).val = (y 1).val; rw [e3]; omega

/-- What point t writes back is block t of the epilogue's result. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q) = G V c (((cfg1.win 2).blk t).view.emb (ix2 p q))
  refine (bias1_pay (iblk1 V c 0 t) (iblk1 V c 1 t) p q).trans ?_
  have ht : t.val < 20 := lt_of_lt_of_eq t.isLt N_1
  have hi : ((cfg1.win 2).blk t).view.emb (ix2 p q)
      = (ix2 (⟨5000 * t.val + p.val, by have := p.isLt; omega⟩ : Fin 100000) q : Cert.ReferenceIdeal.S100000x128.Idx) := by
    funext a
    apply Fin.ext
    match a with
    | ⟨0, _⟩ => show win1_2.index t 0 * 5000 + 1 * p.val = 5000 * t.val + p.val; rw [e4]; omega
    | ⟨1, _⟩ => show win1_2.index t 1 * 128 + 1 * q.val = q.val; rw [e5]; omega
  rw [hi]
  refine Eq.trans ?_ (Cert.ReferenceIdeal.RefRows.reluBias_apply (V c main_v43) (V c main_v44) ⟨5000 * t.val + p.val, by have := p.isLt; omega⟩ q).symm
  exact congrArg₂ (fun u v => max (u + v) (FloatOps.ofBits (F := Ideal) .f32 0x00000000#32))
    (rows_apply V c t (ix2 p q) (ix2 ⟨5000 * t.val + p.val, by have := p.isLt; omega⟩ q) rfl rfl) (bias_apply V c t (ix2 0 q))

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the result lies in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk]
  obtain ⟨-, -, -, -, e4, e5⟩ := idx_facts ⟨(i 0).val / 5000, by rw [hN]; omega⟩
  intro a
  match a with
  | ⟨0, _⟩ =>
    show win1_2.index ⟨(i 0).val / 5000, _⟩ 0 * 5000 ≤ (i 0).val ∧ (i 0).val < win1_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, _⟩ 1 * 128 ≤ (i 1).val ∧ (i 1).val < win1_2.index ⟨(i 0).val / 5000, _⟩ 1 * 128 + 128
    rw [e5]; omega

/-- The result array after the region: the epilogue of the two operand arrays. -/
theorem final (c : Dev nD) : (dat1 V c).arrAt 2 cfg1.N = G V c :=
  (dat1 V c).arrAt_eq_of_cover 2 (G V c) (fun t _ => flushed_eq V c t) cover

end Cert.KernelIdeal.Reg1

end
-- ==== Proof.Reg2.lean ====
/-
  The second linear region's result array, at the ideal instance: the host's dot_general of the two arrays the region
  finds in its operand windows.

  The grid has 20 points; point t stages rows 5000 t … 5000 t + 4999 of the left array and the whole right array, and
  writes back rows 5000 t … 5000 t + 4999 of the result. Entry (p, q) of the block written at t is the sum over k of
  left (5000 t + p, k) times right (k, q), which is the dot_general's entry (5000 t + p, q); the 20 blocks tile the rows.
-/
import proofs.«101611_j41901700939839_1_alg».proof.Proof.Gen.KernelIdeal.Frame
import proofs.«101611_j41901700939839_1_alg».proof.Proof.Blocks
import proofs.«101611_j41901700939839_1_alg».proof.Proof.RefDot
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the result array ends holding: the host's product of the two operand arrays as the region finds them. -/
abbrev G (c : Dev nD) : FVec Ideal Cert.ReferenceIdeal.S100000x128 .f32 :=
  Host.dotGeneral (F := Ideal) (φ₁ := .f32) (φ₂ := .f32) Cert.ReferenceIdeal.dot_S100000x128_S128x128_S100000x128_1_0_0_1_n_n none
    (V c main_v45) (V c main_arg4)

/-- The left window's block at point t is rows 5000 t … of the left array. -/
theorem rows_apply (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v45 : S100000x128.Idx → EReal) i := by
  obtain ⟨e0, e1, -⟩ := idx_facts t
  unfold iblk2
  rw [View.read_apply]
  show V c main_v45 _ = V c main_v45 _
  refine congrArg (V c main_v45) ?_
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The right window's block at every point is the whole right array. -/
theorem weights_apply (c : Dev nD) (t : Fin cfg2.N) (y : S128x128.Idx) :
    (iblk2 V c 1 t : Vec Ideal S128x128 .f32) y = (V c main_arg4 : S128x128.Idx → EReal) y := by
  obtain ⟨-, -, e2, e3, -⟩ := idx_facts t
  unfold iblk2
  rw [View.read_apply]
  show V c main_arg4 _ = V c main_arg4 _
  refine congrArg (V c main_arg4) ?_
  funext a
  apply Fin.ext
  match a with
  | ⟨0, _⟩ => show win2_1.index t 0 * 128 + 1 * (y 0).val = (y 0).val; rw [e2]; omega
  | ⟨1, _⟩ => show win2_1.index t 1 * 128 + 1 * (y 1).val = (y 1).val; rw [e3]; omega

/-- What point t writes back is block t of the product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = G V c (((cfg2.win 2).blk t).view.emb (ix2 p q))
  refine (lin2_pay (iblk2 V c 0 t) (iblk2 V c 1 t) p q).trans ?_
  have ht : t.val < 20 := lt_of_lt_of_eq t.isLt N_2
  have hi : ((cfg2.win 2).blk t).view.emb (ix2 p q)
      = (ix2 (⟨5000 * t.val + p.val, by have := p.isLt; omega⟩ : Fin 100000) q : Cert.ReferenceIdeal.S100000x128.Idx) := by
    funext a
    apply Fin.ext
    match a with
    | ⟨0, _⟩ => show win2_2.index t 0 * 5000 + 1 * p.val = 5000 * t.val + p.val; rw [e4]; omega
    | ⟨1, _⟩ => show win2_2.index t 1 * 128 + 1 * q.val = q.val; rw [e5]; omega
  rw [hi]
  refine Eq.trans ?_ (Cert.ReferenceIdeal.RefDot.dot128_apply (V c main_v45 : FVec Ideal Cert.ReferenceIdeal.S100000x128 .f32) (V c main_arg4 : FVec Ideal Cert.ReferenceIdeal.S128x128 .f32) ⟨5000 * t.val + p.val, by have := p.isLt; omega⟩ q).symm
  refine Finset.sum_congr rfl fun k _ => ?_
  exact congrArg₂ (· * ·) (rows_apply V c t (ix2 p k) (ix2 ⟨5000 * t.val + p.val, by have := p.isLt; omega⟩ k) rfl rfl) (weights_apply V c t (ix2 k q))

/-- An index of the result array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r of the result lies in the block of point r / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ =>
    show win2_2.index ⟨(i 0).val / 5000, _⟩ 0 * 5000 ≤ (i 0).val ∧ (i 0).val < win2_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, _⟩ 1 * 128 ≤ (i 1).val ∧ (i 1).val < win2_2.index ⟨(i 0).val / 5000, _⟩ 1 * 128 + 128
    rw [e5]; omega

/-- The result array after the region: the product of the two operand arrays. -/
theorem final (c : Dev nD) : (dat2 V c).arrAt 2 cfg2.N = G V c :=
  (dat2 V c).arrAt_eq_of_cover 2 (G V c) (fun t _ => flushed_eq V c t) cover

end Cert.KernelIdeal.Reg2

end
-- ==== Proof.Reg3.lean ====
/-
  The second epilogue region's result array, at the ideal instance: the bias row added to every row of the aggregated
  array, then the maximum with zero — the reference's epilogue of the two arrays the region finds in its windows.

  Point t stages rows 5000 t … 5000 t + 4999 of the aggregated array and the whole [1, 128] bias row, and writes back
  the same rows of the result; entry (p, q) of the block written is max (a (5000 t + p, q) + b (0, q), 0).
-/
import proofs.«101611_j41901700939839_1_alg».proof.Proof.Gen.KernelIdeal.Frame
import proofs.«101611_j41901700939839_1_alg».proof.Proof.Blocks
import proofs.«101611_j41901700939839_1_alg».proof.Proof.RefRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen Cert.KernelIdeal.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the result array ends holding: the reference's epilogue of the two operand arrays as the region finds them. -/
abbrev G (c : Dev nD) : FVec Ideal Cert.ReferenceIdeal.S100000x128 .f32 :=
  Cert.ReferenceIdeal.RefOps.reluBias (F := Ideal) (V c main_v59) (V c main_v60)

/-- The first window's block at point t is rows 5000 t … of the aggregated array. -/
theorem rows_apply (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v59 : S100000x128.Idx → EReal) i := by
  obtain ⟨e0, e1, -⟩ := idx_facts t
  unfold iblk3
  rw [View.read_apply]
  show V c main_v59 _ = V c main_v59 _
  refine congrArg (V c main_v59) ?_
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The second window's block at every point is the whole bias row. -/
theorem bias_apply (c : Dev nD) (t : Fin cfg3.N) (y : S1x128.Idx) :
    (iblk3 V c 1 t : Vec Ideal S1x128 .f32) y = (V c main_v60 : S1x128.Idx → EReal) y := by
  obtain ⟨-, -, e2, e3, -⟩ := idx_facts t
  unfold iblk3
  rw [View.read_apply]
  show V c main_v60 _ = V c main_v60 _
  refine congrArg (V c main_v60) ?_
  funext a
  apply Fin.ext
  match a with
  | ⟨0, _⟩ => show win3_1.index t 0 * 1 + 1 * (y 0).val = (y 0).val; rw [e2]; omega
  | ⟨1, _⟩ => show win3_1.index t 1 * 128 + 1 * (y 1).val = (y 1).val; rw [e3]; omega

/-- What point t writes back is block t of the epilogue's result. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q) = G V c (((cfg3.win 2).blk t).view.emb (ix2 p q))
  refine (bias3_pay (iblk3 V c 0 t) (iblk3 V c 1 t) p q).trans ?_
  have ht : t.val < 20 := lt_of_lt_of_eq t.isLt N_3
  have hi : ((cfg3.win 2).blk t).view.emb (ix2 p q)
      = (ix2 (⟨5000 * t.val + p.val, by have := p.isLt; omega⟩ : Fin 100000) q : Cert.ReferenceIdeal.S100000x128.Idx) := by
    funext a
    apply Fin.ext
    match a with
    | ⟨0, _⟩ => show win3_2.index t 0 * 5000 + 1 * p.val = 5000 * t.val + p.val; rw [e4]; omega
    | ⟨1, _⟩ => show win3_2.index t 1 * 128 + 1 * q.val = q.val; rw [e5]; omega
  rw [hi]
  refine Eq.trans ?_ (Cert.ReferenceIdeal.RefRows.reluBias_apply (V c main_v59) (V c main_v60) ⟨5000 * t.val + p.val, by have := p.isLt; omega⟩ q).symm
  exact congrArg₂ (fun u v => max (u + v) (FloatOps.ofBits (F := Ideal) .f32 0x00000000#32))
    (rows_apply V c t (ix2 p q) (ix2 ⟨5000 * t.val + p.val, by have := p.isLt; omega⟩ q) rfl rfl) (bias_apply V c t (ix2 0 q))

/-- An index of the result array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the result lies in the block of point r / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  rw [mem_blk]
  obtain ⟨-, -, -, -, e4, e5⟩ := idx_facts ⟨(i 0).val / 5000, by rw [hN]; omega⟩
  intro a
  match a with
  | ⟨0, _⟩ =>
    show win3_2.index ⟨(i 0).val / 5000, _⟩ 0 * 5000 ≤ (i 0).val ∧ (i 0).val < win3_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, _⟩ 1 * 128 ≤ (i 1).val ∧ (i 1).val < win3_2.index ⟨(i 0).val / 5000, _⟩ 1 * 128 + 128
    rw [e5]; omega

/-- The result array after the region: the epilogue of the two operand arrays. -/
theorem final (c : Dev nD) : (dat3 V c).arrAt 2 cfg3.N = G V c :=
  (dat3 V c).arrAt_eq_of_cover 2 (G V c) (fun t _ => flushed_eq V c t) cover

end Cert.KernelIdeal.Reg3

end
-- ==== Proof.Reg4.lean ====
/-
  The last region's result array, at the ideal instance: the product with the [128, 64] matrix, the bias row added to
  every row, the maximum with zero — the reference's output layer of the three arrays the region finds in its windows.

  Point t stages rows 5000 t … 5000 t + 4999 of the left array, the whole matrix and the whole [1, 64] bias row, and
  writes back the same rows of the result; entry (p, q) of the block written is the larger of zero and the sum over k
  of left (5000 t + p, k) times matrix (k, q), plus b (0, q).
-/
import proofs.«101611_j41901700939839_1_alg».proof.Proof.Gen.KernelIdeal.Frame
import proofs.«101611_j41901700939839_1_alg».proof.Proof.Blocks
import proofs.«101611_j41901700939839_1_alg».proof.Proof.RefRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen Cert.KernelIdeal.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the matrix and the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What the result array ends holding: the reference's output layer of the three operand arrays as the region finds them. -/
abbrev G (c : Dev nD) : FVec Ideal Cert.ReferenceIdeal.S100000x64 .f32 :=
  Cert.ReferenceIdeal.RefOps.lastOf (F := Ideal) (V c main_v61) (V c main_arg6) (V c main_v62)

/-- The first window's block at point t is rows 5000 t … of the left array. -/
theorem rows_apply (c : Dev nD) (t : Fin cfg4.N) (y : S5000x128.Idx) (i : S100000x128.Idx)
    (h0 : (i 0).val = 5000 * t.val + (y 0).val) (h1 : (i 1).val = (y 1).val) :
    (iblk4 V c 0 t : Vec Ideal S5000x128 .f32) y = (V c main_v61 : S100000x128.Idx → EReal) i := by
  obtain ⟨e0, e1, -⟩ := idx_facts t
  unfold iblk4
  rw [View.read_apply]
  show V c main_v61 _ = V c main_v61 _
  refine congrArg (V c main_v61) ?_
  funext a
  apply Fin.ext
  match a with
  | ⟨0, _⟩ => show win4_0.index t 0 * 5000 + 1 * (y 0).val = (i 0).val; rw [e0, h0]; omega
  | ⟨1, _⟩ => show win4_0.index t 1 * 128 + 1 * (y 1).val = (i 1).val; rw [e1, h1]; omega

/-- The second window's block at every point is the whole matrix. -/
theorem weights_apply (c : Dev nD) (t : Fin cfg4.N) (y : S128x64.Idx) :
    (iblk4 V c 1 t : Vec Ideal S128x64 .f32) y = (V c main_arg6 : S128x64.Idx → EReal) y := by
  obtain ⟨-, -, e2, e3, -⟩ := idx_facts t
  unfold iblk4
  rw [View.read_apply]
  show V c main_arg6 _ = V c main_arg6 _
  refine congrArg (V c main_arg6) ?_
  funext a
  apply Fin.ext
  match a with
  | ⟨0, _⟩ => show win4_1.index t 0 * 128 + 1 * (y 0).val = (y 0).val; rw [e2]; omega
  | ⟨1, _⟩ => show win4_1.index t 1 * 64 + 1 * (y 1).val = (y 1).val; rw [e3]; omega

/-- The third window's block at every point is the whole bias row. -/
theorem bias_apply (c : Dev nD) (t : Fin cfg4.N) (y : S1x64.Idx) :
    (iblk4 V c 2 t : Vec Ideal S1x64 .f32) y = (V c main_v62 : S1x64.Idx → EReal) y := by
  obtain ⟨-, -, -, -, e4, e5, -⟩ := idx_facts t
  unfold iblk4
  rw [View.read_apply]
  show V c main_v62 _ = V c main_v62 _
  refine congrArg (V c main_v62) ?_
  funext a
  apply Fin.ext
  match a with
  | ⟨0, _⟩ => show win4_2.index t 0 * 1 + 1 * (y 0).val = (y 0).val; rw [e4]; omega
  | ⟨1, _⟩ => show win4_2.index t 1 * 64 + 1 * (y 1).val = (y 1).val; rw [e5]; omega

/-- What point t writes back is block t of the output layer's result. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  obtain ⟨-, -, -, -, -, -, e6, e7⟩ := idx_facts t
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 2 t) (ix2 p q) = G V c (((cfg4.win 3).blk t).view.emb (ix2 p q))
  refine (last_pay (iblk4 V c 0 t) (iblk4 V c 1 t) (iblk4 V c 2 t) p q).trans ?_
  have ht : t.val < 20 := lt_of_lt_of_eq t.isLt N_4
  have hi : ((cfg4.win 3).blk t).view.emb (ix2 p q)
      = (ix2 (⟨5000 * t.val + p.val, by have := p.isLt; omega⟩ : Fin 100000) q : Cert.ReferenceIdeal.S100000x64.Idx) := by
    funext a
    apply Fin.ext
    match a with
    | ⟨0, _⟩ => show win4_3.index t 0 * 5000 + 1 * p.val = 5000 * t.val + p.val; rw [e6]; omega
    | ⟨1, _⟩ => show win4_3.index t 1 * 64 + 1 * q.val = q.val; rw [e7]; omega
  rw [hi]
  refine Eq.trans ?_ (Cert.ReferenceIdeal.RefRows.lastOf_apply (V c main_v61) (V c main_arg6) (V c main_v62) ⟨5000 * t.val + p.val, by have := p.isLt; omega⟩ q).symm
  refine congrArg₂ (fun u v => max (u + v) (FloatOps.ofBits (F := Ideal) .f32 0x00000000#32)) ?_ (bias_apply V c t (ix2 0 q))
  refine Finset.sum_congr rfl fun k _ => ?_
  exact congrArg₂ (· * ·) (rows_apply V c t (ix2 p k) (ix2 ⟨5000 * t.val + p.val, by have := p.isLt; omega⟩ k) rfl rfl) (weights_apply V c t (ix2 k q))

/-- An index of the result array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v63).slice (win4_3.rect t)).set ↔ _
  rw [View.set_slice_whole, Rect.mem_set_unit]
  exact Iff.rfl

/-- Row r of the result lies in the block of point r / 5000. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_3 _, ?_⟩
  rw [mem_blk]
  obtain ⟨-, -, -, -, -, -, e6, e7⟩ := idx_facts ⟨(i 0).val / 5000, by rw [hN]; omega⟩
  intro a
  match a with
  | ⟨0, _⟩ =>
    show win4_3.index ⟨(i 0).val / 5000, _⟩ 0 * 5000 ≤ (i 0).val ∧ (i 0).val < win4_3.index ⟨(i 0).val / 5000, _⟩ 0 * 5000 + 5000
    rw [e6]; show (i 0).val / 5000 * 5000 ≤ (i 0).val ∧ (i 0).val < (i 0).val / 5000 * 5000 + 5000; omega
  | ⟨1, _⟩ =>
    show win4_3.index ⟨(i 0).val / 5000, _⟩ 1 * 64 ≤ (i 1).val ∧ (i 1).val < win4_3.index ⟨(i 0).val / 5000, _⟩ 1 * 64 + 64
    rw [e7]; omega

/-- The result array after the region: the output layer of the three operand arrays. -/
theorem final (c : Dev nD) : (dat4 V c).arrAt 3 cfg4.N = G V c :=
  (dat4 V c).arrAt_eq_of_cover 3 (G V c) (fun t _ => flushed_eq V c t) cover

end Cert.KernelIdeal.Reg4

end
-- ==== Proof.Chain.lean ====
/-
  The kernel program's result, boundary by boundary, at the ideal instance.

  Between the launch and the return the buffers pass twelve boundaries: host stretches read as functions of what
  they read (the edges' end nodes, the edge weights, the two aggregations, the biases as rows), and each region's result
  array as the reference's layer function of its operand arrays. Followed from the launch memory, the result buffer at
  the last boundary holds the network's function `outOf` of the eight arguments — the same term the reference's run
  ends at.
-/
import proofs.«101611_j41901700939839_1_alg».proof.Proof.Gen.KernelIdeal.Frame
import proofs.«101611_j41901700939839_1_alg».proof.Proof.HostK
import proofs.«101611_j41901700939839_1_alg».proof.Proof.Reg0
import proofs.«101611_j41901700939839_1_alg».proof.Proof.Reg1
import proofs.«101611_j41901700939839_1_alg».proof.Proof.Reg2
import proofs.«101611_j41901700939839_1_alg».proof.Proof.Reg3
import proofs.«101611_j41901700939839_1_alg».proof.Proof.Reg4

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.HostK
open Cert.ReferenceIdeal.RefOps (linOf reluBias lastOf rowOf rowOf64 outOf)

/-! ## The two programs' host terms are the same functions -/

theorem src_eq {F : FTy → Type} [FloatOps F] (e : (⟨S2x1600000, .i32⟩ : BufTy).Contents (Elt F)) :
    HostK.srcOf e = Cert.ReferenceIdeal.RefOps.srcOf e := rfl
theorem dst_eq {F : FTy → Type} [FloatOps F] (e : (⟨S2x1600000, .i32⟩ : BufTy).Contents (Elt F)) :
    HostK.dstOf e = Cert.ReferenceIdeal.RefOps.dstOf e := rfl
theorem norm_eq {F : FTy → Type} [FloatOps F] (s d : (⟨S1700000, .i32⟩ : BufTy).Contents (Elt F)) :
    HostK.normOf s d = Cert.ReferenceIdeal.RefOps.normOf s d := rfl
theorem agg_eq {F : FTy → Type} [FloatOps F] (s d : (⟨S1700000, .i32⟩ : BufTy).Contents (Elt F)) (n : (⟨S1700000, .f32⟩ : BufTy).Contents (Elt F))
    (h : (⟨S100000x128, .f32⟩ : BufTy).Contents (Elt F)) :
    HostK.aggOf s d n h = Cert.ReferenceIdeal.RefOps.aggOf s d n h := rfl

/-- A length-128 vector reshaped to a row is the vector spread along the row's second axis. -/
theorem row_eq {F : FTy → Type} [FloatOps F] (b : (⟨S128, .f32⟩ : BufTy).Contents (Elt F)) :
    shapeCast S1x128 b shapeCasts_S128_S1x128 = rowOf b := by
  funext i
  unfold Cert.ReferenceIdeal.RefOps.rowOf
  rw [shapeCast_addUnit_apply]
  exact (broadcastInDim_apply _ Cert.ReferenceIdeal.Facts₀.bcast_S128_S1x128_1 b i (fun a => i a.succ) (fun a => match a with
    | ⟨0, _⟩ => by show (i 1).val = if (128 : Nat) = 1 then 0 else (i 1).val; rw [if_neg (by decide)])).symm

theorem row64_eq {F : FTy → Type} [FloatOps F] (b : (⟨S64, .f32⟩ : BufTy).Contents (Elt F)) :
    shapeCast S1x64 b shapeCasts_S64_S1x64 = rowOf64 b := by
  funext i
  unfold Cert.ReferenceIdeal.RefOps.rowOf64
  rw [shapeCast_addUnit_apply]
  exact (broadcastInDim_apply _ Cert.ReferenceIdeal.Facts₀.bcast_S64_S1x64_1 b i (fun a => i a.succ) (fun a => match a with
    | ⟨0, _⟩ => by show (i 1).val = if (64 : Nat) = 1 then 0 else (i 1).val; rw [if_neg (by decide)])).symm

variable (m : (ℓ : Loc nD τ sig) → Buf (Elt Ideal) ℓ) (ρ : Dev nD → PrngReg) (c : Dev nD)

/-- The arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

/-- The edges' end nodes and weights, of the edge list as launched. -/
abbrev src := HostK.srcOf (F := Ideal) (a1 m c)
abbrev dst := HostK.dstOf (F := Ideal) (a1 m c)
abbrev nrm := HostK.normOf (F := Ideal) (src m c) (dst m c)

/-! ## Up to the first region -/

theorem w3_v3 : W3 m ρ c (Proc.devRef .tc main_v3) = src m c := pre_v3 (W0 m ρ c)
theorem w3_v6 : W3 m ρ c (Proc.devRef .tc main_v6) = dst m c := pre_v6 (W0 m ρ c)
theorem w3_v29 : W3 m ρ c (Proc.devRef .tc main_v29) = nrm m c := pre_v29 (W0 m ρ c)
theorem w3_arg0 : W3 m ρ c (Proc.devRef .tc main_arg0) = a0 m c := pre_arg0 (W0 m ρ c)
theorem w3_arg2 : W3 m ρ c (Proc.devRef .tc main_arg2) = a2 m c := pre_arg2 (W0 m ρ c)
theorem w3_arg3 : W3 m ρ c (Proc.devRef .tc main_arg3) = a3 m c := pre_arg3 (W0 m ρ c)
theorem w3_arg4 : W3 m ρ c (Proc.devRef .tc main_arg4) = a4 m c := pre_arg4 (W0 m ρ c)
theorem w3_arg5 : W3 m ρ c (Proc.devRef .tc main_arg5) = a5 m c := pre_arg5 (W0 m ρ c)
theorem w3_arg6 : W3 m ρ c (Proc.devRef .tc main_arg6) = a6 m c := pre_arg6 (W0 m ρ c)
theorem w3_arg7 : W3 m ρ c (Proc.devRef .tc main_arg7) = a7 m c := pre_arg7 (W0 m ρ c)

/-! ## After the first linear region -/

/-- The first layer's linear output. -/
abbrev lin1 := linOf (F := Ideal) (a0 m c) (a2 m c)

theorem w4_v30 : W4 m ρ c (Proc.devRef .tc main_v30) = lin1 m c := by
  refine (W4_arr m ρ c 2).trans ((Reg0.final (V3 m ρ) c).trans ?_)
  show linOf (F := Ideal) (W3 m ρ c (Proc.devRef .tc main_arg0)) (W3 m ρ c (Proc.devRef .tc main_arg2)) = _
  rw [w3_arg0, w3_arg2]
theorem w4_v3 : W4 m ρ c (Proc.devRef .tc main_v3) = src m c := (W4_of_ne m ρ c main_v3 (by decide)).trans (w3_v3 m ρ c)
theorem w4_v6 : W4 m ρ c (Proc.devRef .tc main_v6) = dst m c := (W4_of_ne m ρ c main_v6 (by decide)).trans (w3_v6 m ρ c)
theorem w4_v29 : W4 m ρ c (Proc.devRef .tc main_v29) = nrm m c := (W4_of_ne m ρ c main_v29 (by decide)).trans (w3_v29 m ρ c)
theorem w4_arg3 : W4 m ρ c (Proc.devRef .tc main_arg3) = a3 m c := (W4_of_ne m ρ c main_arg3 (by decide)).trans (w3_arg3 m ρ c)
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)
theorem w4_arg6 : W4 m ρ c (Proc.devRef .tc main_arg6) = a6 m c := (W4_of_ne m ρ c main_arg6 (by decide)).trans (w3_arg6 m ρ c)
theorem w4_arg7 : W4 m ρ c (Proc.devRef .tc main_arg7) = a7 m c := (W4_of_ne m ρ c main_arg7 (by decide)).trans (w3_arg7 m ρ c)

/-! ## After the first aggregation -/

abbrev agg1 := HostK.aggOf (F := Ideal) (src m c) (dst m c) (nrm m c) (lin1 m c)

theorem w5_v43 : W5 m ρ c (Proc.devRef .tc main_v43) = agg1 m c := by
  refine (agg1_v43 (W4 m ρ c)).trans ?_
  rw [w4_v3, w4_v6, w4_v29, w4_v30]
theorem w5_v44 : W5 m ρ c (Proc.devRef .tc main_v44) = shapeCast S1x128 (a3 m c) shapeCasts_S128_S1x128 := by
  refine (agg1_v44 (W4 m ρ c)).trans ?_
  rw [w4_arg3]
theorem w5_v3 : W5 m ρ c (Proc.devRef .tc main_v3) = src m c := (agg1_v3 (W4 m ρ c)).trans (w4_v3 m ρ c)
theorem w5_v6 : W5 m ρ c (Proc.devRef .tc main_v6) = dst m c := (agg1_v6 (W4 m ρ c)).trans (w4_v6 m ρ c)
theorem w5_v29 : W5 m ρ c (Proc.devRef .tc main_v29) = nrm m c := (agg1_v29 (W4 m ρ c)).trans (w4_v29 m ρ c)
theorem w5_arg4 : W5 m ρ c (Proc.devRef .tc main_arg4) = a4 m c := (agg1_arg4 (W4 m ρ c)).trans (w4_arg4 m ρ c)
theorem w5_arg5 : W5 m ρ c (Proc.devRef .tc main_arg5) = a5 m c := (agg1_arg5 (W4 m ρ c)).trans (w4_arg5 m ρ c)
theorem w5_arg6 : W5 m ρ c (Proc.devRef .tc main_arg6) = a6 m c := (agg1_arg6 (W4 m ρ c)).trans (w4_arg6 m ρ c)
theorem w5_arg7 : W5 m ρ c (Proc.devRef .tc main_arg7) = a7 m c := (agg1_arg7 (W4 m ρ c)).trans (w4_arg7 m ρ c)

/-! ## After the first epilogue region -/

abbrev h1 := reluBias (F := Ideal) (agg1 m c) (shapeCast S1x128 (a3 m c) shapeCasts_S128_S1x128)

theorem w6_v45 : W6 m ρ c (Proc.devRef .tc main_v45) = h1 m c := by
  refine (W6_arr m ρ c 2).trans ((Reg1.final (V5 m ρ) c).trans ?_)
  show reluBias (F := Ideal) (W5 m ρ c (Proc.devRef .tc main_v43)) (W5 m ρ c (Proc.devRef .tc main_v44)) = _
  rw [w5_v43, w5_v44]
theorem w6_v3 : W6 m ρ c (Proc.devRef .tc main_v3) = src m c := (W6_of_ne m ρ c main_v3 (by decide)).trans (w5_v3 m ρ c)
theorem w6_v6 : W6 m ρ c (Proc.devRef .tc main_v6) = dst m c := (W6_of_ne m ρ c main_v6 (by decide)).trans (w5_v6 m ρ c)
theorem w6_v29 : W6 m ρ c (Proc.devRef .tc main_v29) = nrm m c := (W6_of_ne m ρ c main_v29 (by decide)).trans (w5_v29 m ρ c)
theorem w6_arg4 : W6 m ρ c (Proc.devRef .tc main_arg4) = a4 m c := (W6_of_ne m ρ c main_arg4 (by decide)).trans (w5_arg4 m ρ c)
theorem w6_arg5 : W6 m ρ c (Proc.devRef .tc main_arg5) = a5 m c := (W6_of_ne m ρ c main_arg5 (by decide)).trans (w5_arg5 m ρ c)
theorem w6_arg6 : W6 m ρ c (Proc.devRef .tc main_arg6) = a6 m c := (W6_of_ne m ρ c main_arg6 (by decide)).trans (w5_arg6 m ρ c)
theorem w6_arg7 : W6 m ρ c (Proc.devRef .tc main_arg7) = a7 m c := (W6_of_ne m ρ c main_arg7 (by decide)).trans (w5_arg7 m ρ c)

/-! ## After the second linear region -/

abbrev lin2 := linOf (F := Ideal) (h1 m c) (a4 m c)

theorem w7_v46 : W7 m ρ c (Proc.devRef .tc main_v46) = lin2 m c := by
  refine (W7_arr m ρ c 2).trans ((Reg2.final (V6 m ρ) c).trans ?_)
  show linOf (F := Ideal) (W6 m ρ c (Proc.devRef .tc main_v45)) (W6 m ρ c (Proc.devRef .tc main_arg4)) = _
  rw [w6_v45, w6_arg4]
theorem w7_v3 : W7 m ρ c (Proc.devRef .tc main_v3) = src m c := (W7_of_ne m ρ c main_v3 (by decide)).trans (w6_v3 m ρ c)
theorem w7_v6 : W7 m ρ c (Proc.devRef .tc main_v6) = dst m c := (W7_of_ne m ρ c main_v6 (by decide)).trans (w6_v6 m ρ c)
theorem w7_v29 : W7 m ρ c (Proc.devRef .tc main_v29) = nrm m c := (W7_of_ne m ρ c main_v29 (by decide)).trans (w6_v29 m ρ c)
theorem w7_arg5 : W7 m ρ c (Proc.devRef .tc main_arg5) = a5 m c := (W7_of_ne m ρ c main_arg5 (by decide)).trans (w6_arg5 m ρ c)
theorem w7_arg6 : W7 m ρ c (Proc.devRef .tc main_arg6) = a6 m c := (W7_of_ne m ρ c main_arg6 (by decide)).trans (w6_arg6 m ρ c)
theorem w7_arg7 : W7 m ρ c (Proc.devRef .tc main_arg7) = a7 m c := (W7_of_ne m ρ c main_arg7 (by decide)).trans (w6_arg7 m ρ c)

/-! ## After the second aggregation -/

abbrev agg2 := HostK.aggOf (F := Ideal) (src m c) (dst m c) (nrm m c) (lin2 m c)

theorem w8_v59 : W8 m ρ c (Proc.devRef .tc main_v59) = agg2 m c := by
  refine (agg2_v59 (W7 m ρ c)).trans ?_
  rw [w7_v3, w7_v6, w7_v29, w7_v46]
theorem w8_v60 : W8 m ρ c (Proc.devRef .tc main_v60) = shapeCast S1x128 (a5 m c) shapeCasts_S128_S1x128 := by
  refine (agg2_v60 (W7 m ρ c)).trans ?_
  rw [w7_arg5]
theorem w8_arg6 : W8 m ρ c (Proc.devRef .tc main_arg6) = a6 m c := (agg2_arg6 (W7 m ρ c)).trans (w7_arg6 m ρ c)
theorem w8_arg7 : W8 m ρ c (Proc.devRef .tc main_arg7) = a7 m c := (agg2_arg7 (W7 m ρ c)).trans (w7_arg7 m ρ c)

/-! ## After the second epilogue region -/

abbrev h2 := reluBias (F := Ideal) (agg2 m c) (shapeCast S1x128 (a5 m c) shapeCasts_S128_S1x128)

theorem w9_v61 : W9 m ρ c (Proc.devRef .tc main_v61) = h2 m c := by
  refine (W9_arr m ρ c 2).trans ((Reg3.final (V8 m ρ) c).trans ?_)
  show reluBias (F := Ideal) (W8 m ρ c (Proc.devRef .tc main_v59)) (W8 m ρ c (Proc.devRef .tc main_v60)) = _
  rw [w8_v59, w8_v60]
theorem w9_arg6 : W9 m ρ c (Proc.devRef .tc main_arg6) = a6 m c := (W9_of_ne m ρ c main_arg6 (by decide)).trans (w8_arg6 m ρ c)
theorem w9_arg7 : W9 m ρ c (Proc.devRef .tc main_arg7) = a7 m c := (W9_of_ne m ρ c main_arg7 (by decide)).trans (w8_arg7 m ρ c)

/-! ## Before and after the last region -/

theorem w10_v61 : W10 m ρ c (Proc.devRef .tc main_v61) = h2 m c := (last_v61 (W9 m ρ c)).trans (w9_v61 m ρ c)
theorem w10_arg6 : W10 m ρ c (Proc.devRef .tc main_arg6) = a6 m c := (last_arg6 (W9 m ρ c)).trans (w9_arg6 m ρ c)
theorem w10_v62 : W10 m ρ c (Proc.devRef .tc main_v62) = shapeCast S1x64 (a7 m c) shapeCasts_S64_S1x64 := by
  refine (last_v62 (W9 m ρ c)).trans ?_
  rw [w9_arg7]

theorem w11_v63 : W11 m ρ c (Proc.devRef .tc main_v63)
    = lastOf (F := Ideal) (h2 m c) (a6 m c) (shapeCast S1x64 (a7 m c) shapeCasts_S64_S1x64) := by
  refine (W11_arr m ρ c 3).trans ((Reg4.final (V10 m ρ) c).trans ?_)
  show lastOf (F := Ideal) (W10 m ρ c (Proc.devRef .tc main_v61)) (W10 m ρ c (Proc.devRef .tc main_arg6)) (W10 m ρ c (Proc.devRef .tc main_v62)) = _
  rw [w10_v61, w10_arg6, w10_v62]

/-- The result buffer at the last boundary: the network's function of the eight arguments as launched. -/
theorem result_eq : W11 m ρ c (Proc.devRef .tc main_v63)
    = outOf (F := Ideal) (a0 m c) (a1 m c) (a2 m c) (a3 m c) (a4 m c) (a5 m c) (a6 m c) (a7 m c) := by
  rw [w11_v63]
  unfold Cert.ReferenceIdeal.RefOps.outOf
  rw [row64_eq, ← src_eq, ← dst_eq, ← norm_eq, ← agg_eq, ← agg_eq, ← row_eq, ← row_eq]

end Cert.KernelIdeal.Chain

end
-- ==== Proof.RefRunH.lean ====
/-
  The reference's run: @main is the sequence of its 93 host operations, so every weakly fair execution terminates
  with each buffer at the operations' fold over the launch contents (the library's run of a straight line of host
  operations); the result buffer then holds the network's function `outOf` of the eight arguments, and no operation
  writes an argument.
-/
import proofs.«101611_j41901700939839_1_alg».proof.Proof.RefOps

noncomputable section

namespace Cert.ReferenceIdeal.RefRunH

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 8192 in
set_option maxHeartbeats 4000000 in
/-- @main is the sequence of the four lists, in order. -/
theorem main_eq (c : Dev nD) : main (F := F) c = seq (ops (F := F)) := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

theorem ops_fresh : ∀ op ∈ (ops : List (HloOp τ sig (Elt F))), op.fresh = ∅ :=
  List.forall_iff_forall_mem.mp
    (List.forall_append.mpr ⟨List.forall_append.mpr ⟨List.forall_append.mpr ⟨opsA_fresh, opsB_fresh⟩, opsC_fresh⟩, opsD_fresh⟩)

/-- On every device, from any memory with zero counters: every weakly fair execution of @main terminates with the
    result at `outOf` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v70).trans (out_v70 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c))⟩)
    (run_seq scopedRefs_eq scopedSems_eq defs main (fun _ => ops) main_eq (fun _ => ops_sub) m ρ (fun _ => ops_fresh))

end Cert.ReferenceIdeal.RefRunH

end
-- ==== Proof.lean ====
/-
  The certificate of a three-layer graph convolution network computed with five Pallas kernels against its jnp
  reference: equivalence over the extended reals.

  Both programs compute, from the node features x, the edge list and the layers' weights and biases,
    h1 = max (A (x · W1) + b1, 0),  h2 = max (A (h1 · W2) + b2, 0),  out = max (h2 · Wl + bl, 0),
  where A is the normalised aggregation over the edges with one self loop per node: row (source e) of its operand,
  scaled by deg^(-1/2)(source e) · deg^(-1/2)(target e), added into row (target e). The kernel program does the three
  products and the epilogues in five kernel regions over 20 row blocks of 5000 rows each, its operands narrowed to
  bf16 before each product (the identity on extended reals) and the products accumulated from zero; the edge
  bookkeeping and the two aggregations are host operations in both programs, the same ones. So at the ideal instance
  each region's result array is the reference's layer function of the region's operand arrays, entry by entry a sum of
  128 products (plus a bias entry, against zero), and both programs end at ONE term of the eight arguments
  (`RefOps.outOf`): no algebraic law beyond that is used, and the precondition is never opened.

  The frames of the two kernel programs are the generated ones; the kernel program's run with its result buffer read
  (`KRun.run_out`) is the generated frame's launch called once more; the reference's run (`RefRunH.run`) is the
  library's run of a straight line of host operations.
-/
import proofs.«101611_j41901700939839_1_alg».proof.Defs
import proofs.«101611_j41901700939839_1_alg».proof.Proof.Gen.Kernel
import proofs.«101611_j41901700939839_1_alg».proof.Proof.Gen.Kernel.Frame
import proofs.«101611_j41901700939839_1_alg».proof.Proof.Gen.KernelIdeal
import proofs.«101611_j41901700939839_1_alg».proof.Proof.Gen.KernelIdeal.Frame
import proofs.«101611_j41901700939839_1_alg».proof.Proof.Gen.ReferenceIdeal
import proofs.«101611_j41901700939839_1_alg».proof.Proof.Gen.Pre_finite_inputs
import proofs.«101611_j41901700939839_1_alg».proof.Proof.KRun
import proofs.«101611_j41901700939839_1_alg».proof.Proof.Chain
import proofs.«101611_j41901700939839_1_alg».proof.Proof.RefRunH
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefRunH.run (F := Ideal) m ρ)

/-- The ideal pass rewrote nothing: the idealized kernel is the kernel's own text read at the ideal instance. -/
theorem preserves : Cert.preserves_Kernel_KernelIdeal := trivial

/-- Both programs end with the network's function of the eight arguments in their result buffers: the kernel program by
    its boundaries followed from the launch (`Chain.result_eq`), the reference by its operations' fold
    (`RefRunH.run`), at arguments that agree. -/
theorem algebraic : Cert.algebraic_KernelIdeal_ReferenceIdeal := by
  intro m ρ m' ρ' _ hagree
  refine ⟨fun c => Cert.ReferenceIdeal.RefOps.outOf (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c)
      (Cert.KernelIdeal.Chain.a6 m c) (Cert.KernelIdeal.Chain.a7 m c), ?_, ?_⟩
  · exact (θ_run Cert.KernelIdeal.defs _ _).mono
      (fun _ h c => ⟨(h c).1.trans (Cert.KernelIdeal.Chain.result_eq m ρ c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.RefRunH.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
